-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x300 : Shape := ⟨2, ![1024, 300]⟩
abbrev S100x600 : Shape := ⟨2, ![100, 600]⟩
abbrev S100 : Shape := ⟨1, ![100]⟩
abbrev S1x100 : Shape := ⟨2, ![1, 100]⟩
abbrev S1 : Shape := ⟨1, ![1]⟩
abbrev S1024 : Shape := ⟨1, ![1024]⟩
abbrev S_ : Shape := ⟨0, ![]⟩

class Facts : Prop where
  bcast_S_S1024x300 : S_.BroadcastsInDim S1024x300 (![] : Fin 0 → Fin S1024x300.rank)
  reducesTo_S1024x300_S_d0_1 : S1024x300.ReducesTo [0, 1] S_
  h_S_ : 0 < S_.numel
  bcast_S_S100x600 : S_.BroadcastsInDim S100x600 (![] : Fin 0 → Fin S100x600.rank)
  reducesTo_S100x600_S_d0_1 : S100x600.ReducesTo [0, 1] S_
  bcast_S_S100 : S_.BroadcastsInDim S100 (![] : Fin 0 → Fin S100.rank)
  reducesTo_S100_S_d0 : S100.ReducesTo [0] S_
  bcast_S_S1x100 : S_.BroadcastsInDim S1x100 (![] : Fin 0 → Fin S1x100.rank)
  reducesTo_S1x100_S_d0_1 : S1x100.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x100 1) : IVec S_ 1 :=
  let main_c_5 : IVec S_ 1 := constantI S_ 1 1#1
  let main_v17 : IVec S_ 1 := (fun x v => Host.reduce IntOp.andi x v reducesTo_S1x100_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1024x300 .f32) (main_arg1 : FVec F S100x600 .f32) (main_arg2 : FVec F S100 .f32) (main_arg3 : FVec F S1x100 .f32) (main_arg4 : FVec F S1 .f32) (main_arg5 : IVec S1024 32) : IVec S_ 1 :=
  let main_v0 : FVec F S1024x300 .f32 := Host.absf main_arg0
  let main_cst : FVec F S_ .f32 := constant S_ .f32 0x7F800000#32
  let main_v1 : FVec F S1024x300 .f32 := broadcastInDim S1024x300 ![] bcast_S_S1024x300 main_cst
  let main_v2 : IVec S1024x300 1 := cmpf .olt main_v0 main_v1
  let main_c : IVec S_ 1 := constantI S_ 1 1#1
  let main_v3 : IVec S_ 1 := (fun x v => Host.reduce IntOp.andi x v reducesTo_S1024x300_S_d0_1 h_S_) main_v2 main_c
  let main_v4 : FVec F S100x600 .f32 := Host.absf main_arg1
  let main_cst_0 : FVec F S_ .f32 := constant S_ .f32 0x7F800000#32
  let main_v5 : FVec F S100x600 .f32 := broadcastInDim S100x600 ![] bcast_S_S100x600 main_cst_0
  let main_v6 : IVec S100x600 1 := cmpf .olt main_v4 main_v5
  let main_c_1 : IVec S_ 1 := constantI S_ 1 1#1
  let main_v7 : IVec S_ 1 := (fun x v => Host.reduce IntOp.andi x v reducesTo_S100x600_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S1x100 .f32 := Host.absf main_arg3
  let main_cst_4 : FVec F S_ .f32 := constant S_ .f32 0x7F800000#32
  let main_v15 : FVec F S1x100 .f32 := broadcastInDim S1x100 ![] bcast_S_S1x100 main_cst_4
  let main_v16 : IVec S1x100 1 := cmpf .olt main_v14 main_v15
  fn_part1 (F := F) main_arg4 main_v13 main_v16
-- ==== Kernel.lean ====
abbrev S1024x300 : Shape := ⟨2, ![1024, 300]⟩
abbrev S100x600 : Shape := ⟨2, ![100, 600]⟩
abbrev S100 : Shape := ⟨1, ![100]⟩
abbrev S1x100 : Shape := ⟨2, ![1, 100]⟩
abbrev S1 : Shape := ⟨1, ![1]⟩
abbrev S1024 : Shape := ⟨1, ![1024]⟩
abbrev S_ : Shape := ⟨0, ![]⟩
abbrev S1x300 : Shape := ⟨2, ![1, 300]⟩
abbrev S1025x300 : Shape := ⟨2, ![1025, 300]⟩
abbrev S100x300 : Shape := ⟨2, ![100, 300]⟩
abbrev S1024x100 : Shape := ⟨2, ![1024, 100]⟩
abbrev S1025x100 : Shape := ⟨2, ![1025, 100]⟩
abbrev S1152x100 : Shape := ⟨2, ![1152, 100]⟩
abbrev S1x1 : Shape := ⟨2, ![1, 1]⟩
abbrev S1024x1152 : Shape := ⟨2, ![1024, 1152]⟩
abbrev S128x100 : Shape := ⟨2, ![128, 100]⟩
abbrev S128x128 : Shape := ⟨2, ![128, 128]⟩
abbrev S128x1x100 : Shape := ⟨3, ![128, 1, 100]⟩
abbrev S1x128x100 : Shape := ⟨3, ![1, 128, 100]⟩
abbrev S128x128x100 : Shape := ⟨3, ![128, 128, 100]⟩
abbrev S1x1x100 : Shape := ⟨3, ![1, 1, 100]⟩
abbrev S1024x1025 : Shape := ⟨2, ![1024, 1025]⟩
abbrev S1025 : Shape := ⟨1, ![1025]⟩
abbrev S1x1025 : Shape := ⟨2, ![1, 1025]⟩
abbrev S1024x1 : Shape := ⟨2, ![1024, 1]⟩

abbrev nBuf : Space → Nat
  | .hbm => 47
  | .vmem => 9
  | .smem => 0
  | _ => 0

abbrev bufTy : (tb : Table) → Fin (tcTables nBuf tb) → BufTy
  | .hbm, ⟨0, _⟩ => ⟨S1024x300, .f32⟩
  | .hbm, ⟨1, _⟩ => ⟨S100x600, .f32⟩
  | .hbm, ⟨2, _⟩ => ⟨S100, .f32⟩
  | .hbm, ⟨3, _⟩ => ⟨S1x100, .f32⟩
  | .hbm, ⟨4, _⟩ => ⟨S1, .f32⟩
  | .hbm, ⟨5, _⟩ => ⟨S1024, .i32⟩
  | .hbm, ⟨6, _⟩ => ⟨S_, .f32⟩
  | .hbm, ⟨7, _⟩ => ⟨S1x300, .f32⟩
  | .hbm, ⟨8, _⟩ => ⟨S1025x300, .f32⟩
  | .hbm, ⟨9, _⟩ => ⟨S100x300, .f32⟩
  | .hbm, ⟨10, _⟩ => ⟨S1024x100, .f32⟩
  | .hbm, ⟨11, _⟩ => ⟨S100x300, .f32⟩
  | .hbm, ⟨12, _⟩ => ⟨S1025x100, .f32⟩
  | .hbm, ⟨13, _⟩ => ⟨S_, .i32⟩
  | .hbm, ⟨14, _⟩ => ⟨S_, .f32⟩
  | .hbm, ⟨15, _⟩ => ⟨S1152x100, .f32⟩
  | .hbm, ⟨16, _⟩ => ⟨S1x100, .f32⟩
  | .hbm, ⟨17, _⟩ => ⟨S1x1, .f32⟩
  | .hbm, ⟨18, _⟩ => ⟨S1024x1152, .f32⟩
  | .hbm, ⟨19, _⟩ => ⟨S1024x1025, .f32⟩
  | .hbm, ⟨20, _⟩ => ⟨S1025, .i32⟩
  | .hbm, ⟨21, _⟩ => ⟨S1x1025, .i32⟩
  | .hbm, ⟨22, _⟩ => ⟨S1024x1, .i32⟩
  | .hbm, ⟨23, _⟩ => ⟨S1024x1025, .i32⟩
  | .hbm, ⟨24, _⟩ => ⟨S1024x1025, .i32⟩
  | .hbm, ⟨25, _⟩ => ⟨S1024x1025, .i1⟩
  | .hbm, ⟨26, _⟩ => ⟨S1024x1025, .f32⟩
  | .hbm, ⟨27, _⟩ => ⟨S1024x1025, .f32⟩
  | .hbm, ⟨28, _⟩ => ⟨S1024x1025, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024x1, .f32⟩
  | .hbm, ⟨39, _⟩ => ⟨S1024x1025, .f32⟩
  | .hbm, ⟨40, _⟩ => ⟨S1024x1025, .f32⟩
  | .hbm, ⟨41, _⟩ => ⟨S1024x1025, .f32⟩
  | .hbm, ⟨42, _⟩ => ⟨S_, .f32⟩
  | .hbm, ⟨43, _⟩ => ⟨S1024, .f32⟩
  | .hbm, ⟨44, _⟩ => ⟨S1024x1, .f32⟩
  | .hbm, ⟨45, _⟩ => ⟨S1024x1025, .f32⟩
  | .hbm, ⟨46, _⟩ => ⟨S1024x1025, .f32⟩
  | .local _ .vmem, ⟨0, _⟩ => ⟨S128x100, .f32⟩
  | .local _ .vmem, ⟨1, _⟩ => ⟨S128x100, .f32⟩
  | .local _ .vmem, ⟨2, _⟩ => ⟨S128x100, .f32⟩
  | .local _ .vmem, ⟨3, _⟩ => ⟨S128x100, .f32⟩
  | .local _ .vmem, ⟨4, _⟩ => ⟨S1x100, .f32⟩
  | .local _ .vmem, ⟨5, _⟩ => ⟨S1x100, .f32⟩
  | .local _ .vmem, ⟨6, _⟩ => ⟨S1x1, .f32⟩
  | .local _ .vmem, ⟨7, _⟩ => ⟨S128x128, .f32⟩
  | .local _ .vmem, ⟨8, _⟩ => ⟨S128x128, .f32⟩
  | _, _ => ⟨S1024x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S1x300 : S_.BroadcastsInDim S1x300 (![] : Fin 0 → Fin S1x300.rank)
  concatenates_S1x300_S1024x300_S1025x300_d0 : Shape.Concatenates [S1x300, S1024x300] S1025x300 0
  slices_S100x600_S100x300_0_0 : S100x600.Slices ![0, 0] S100x300
  slices_S100x600_S100x300_0_300 : S100x600.Slices ![0, 300] S100x300
  pads_S1025x100_S1152x100_01270_000 : S1025x100.Pads (![0, 0] : Fin 2 → Nat) ![127, 0] ![0, 0] S1152x100
  h_S_ : 0 < S_.numel
  shapeCasts_S100_S1x100 : S100.ShapeCasts S1x100
  shapeCasts_S1_S1x1 : S1.ShapeCasts S1x1
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S128x100_S128x1x100 : S128x100.ShapeCasts S128x1x100
  shapeCasts_S128x100_S1x128x100 : S128x100.ShapeCasts S1x128x100
  broadcasts_S128x1x100_S128x128x100 : S128x1x100.Broadcasts S128x128x100
  broadcasts_S1x128x100_S128x128x100 : S1x128x100.Broadcasts S128x128x100
  shapeCasts_S1x100_S1x1x100 : S1x100.ShapeCasts S1x1x100
  broadcasts_S1x1x100_S128x128x100 : S1x1x100.Broadcasts S128x128x100
  reduces_S128x128x100_S128x128 : S128x128x100.Reduces [2] S128x128
  inb_S128x128_S128x128_0_0 : ∀ a, (![0, 0] : Fin 2 → Nat) a + S128x128.size a ≤ S128x128.size a
  h_S128x128 : 0 < S128x128.numel
  slices_S1024x1152_S1024x1025_0_0 : S1024x1152.Slices ![0, 0] S1024x1025
  bcast_S1025_S1x1025_1 : S1025.BroadcastsInDim S1x1025 (![1] : Fin 1 → Fin S1x1025.rank)
  bcast_S1024_S1024x1_0 : S1024.BroadcastsInDim S1024x1 (![0] : Fin 1 → Fin S1024x1.rank)
  bcast_S1x1025_S1024x1025_0_1 : S1x1025.BroadcastsInDim S1024x1025 (![0, 1] : Fin 2 → Fin S1024x1025.rank)
  bcast_S1024x1_S1024x1025_0_1 : S1024x1.BroadcastsInDim S1024x1025 (![0, 1] : Fin 2 → Fin S1024x1025.rank)
  reducesTo_S1024x1025_S_d0_1 : S1024x1025.ReducesTo [0, 1] S_
  reducesTo_S1024x1025_S1024_d1 : S1024x1025.ReducesTo [1] S1024
  bcast_S_S1024 : S_.BroadcastsInDim S1024 (![] : Fin 0 → Fin S1024.rank)
  dot_S1024x300_S100x300_S1024x100_1_1_0_0_n_n_wf : DotDims.WF S1024x300 S100x300 S1024x100 [1] [1] [0] [0] [] []
  dot_S1025x300_S100x300_S1025x100_1_1_0_0_n_n_wf : DotDims.WF S1025x300 S100x300 S1025x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x100.size a ≤ S1024x100.size a
  hwx0_0 : ∀ i : grid0.Coords, EltTy.bits .f32 = 32 ∨ (Rect.block (s := S1024x100) S128x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x100.size a ≤ S1152x100.size a
  hwx0_1 : ∀ i : grid0.Coords, EltTy.bits .f32 = 32 ∨ (Rect.block (s := S1152x100) S128x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S1024x1152.size a
  hwx0_5 : ∀ i : grid0.Coords, EltTy.bits .f32 = 32 ∨ (Rect.block (s := S1024x1152) S128x128.size (cc0_transform_5 i) (hinb0_5 i)).WholeWords (EltTy.packing .f32)

variable [Facts₀]

def dot_S1024x300_S100x300_S1024x100_1_1_0_0_n_n : DotDims S1024x300 S100x300 S1024x100 where
  lhsContracting := [1]
  rhsContracting := [1]
  lhsNonContracting := [0]
  rhsNonContracting := [0]
  lhsBatch := []
  rhsBatch := []
  wf := dot_S1024x300_S100x300_S1024x100_1_1_0_0_n_n_wf
def dot_S1025x300_S100x300_S1025x100_1_1_0_0_n_n : DotDims S1025x300 S100x300 S1025x100 where
  lhsContracting := [1]
  rhsContracting := [1]
  lhsNonContracting := [0]
  rhsNonContracting := [0]
  lhsBatch := []
  rhsBatch := []
  wf := dot_S1025x300_S100x300_S1025x100_1_1_0_0_n_n_wf

abbrev win0_0 : Pipeline.Window sig grid0 :=
  Pipeline.Window.ofSpec (Memref.whole main_v3) S128x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x300 : Shape := ⟨2, ![1024, 300]⟩
abbrev S100x600 : Shape := ⟨2, ![100, 600]⟩
abbrev S100 : Shape := ⟨1, ![100]⟩
abbrev S1x100 : Shape := ⟨2, ![1, 100]⟩
abbrev S1 : Shape := ⟨1, ![1]⟩
abbrev S1024 : Shape := ⟨1, ![1024]⟩
abbrev S_ : Shape := ⟨0, ![]⟩
abbrev S1x300 : Shape := ⟨2, ![1, 300]⟩
abbrev S1025x300 : Shape := ⟨2, ![1025, 300]⟩
abbrev S100x300 : Shape := ⟨2, ![100, 300]⟩
abbrev S1024x100 : Shape := ⟨2, ![1024, 100]⟩
abbrev S1025x100 : Shape := ⟨2, ![1025, 100]⟩
abbrev S1024x1x100 : Shape := ⟨3, ![1024, 1, 100]⟩
abbrev S1x1025x100 : Shape := ⟨3, ![1, 1025, 100]⟩
abbrev S1024x1025x100 : Shape := ⟨3, ![1024, 1025, 100]⟩
abbrev S1x1x100 : Shape := ⟨3, ![1, 1, 100]⟩
abbrev S1024x1025x1 : Shape := ⟨3, ![1024, 1025, 1]⟩
abbrev S1024x1025 : Shape := ⟨2, ![1024, 1025]⟩
abbrev S1025 : Shape := ⟨1, ![1025]⟩
abbrev S1x1025 : Shape := ⟨2, ![1, 1025]⟩
abbrev S1024x1 : Shape := ⟨2, ![1024, 1]⟩

abbrev nBuf : Space → Nat
  | .hbm => 61
  | .vmem => 0
  | .smem => 0
  | _ => 0

abbrev bufTy : (tb : Table) → Fin (tcTables nBuf tb) → BufTy
  | .hbm, ⟨0, _⟩ => ⟨S1024x300, .f32⟩
  | .hbm, ⟨1, _⟩ => ⟨S100x600, .f32⟩
  | .hbm, ⟨2, _⟩ => ⟨S100, .f32⟩
  | .hbm, ⟨3, _⟩ => ⟨S1x100, .f32⟩
  | .hbm, ⟨4, _⟩ => ⟨S1, .f32⟩
  | .hbm, ⟨5, _⟩ => ⟨S1024, .i32⟩
  | .hbm, ⟨6, _⟩ => ⟨S_, .f32⟩
  | .hbm, ⟨7, _⟩ => ⟨S1x300, .f32⟩
  | .hbm, ⟨8, _⟩ => ⟨S1025x300, .f32⟩
  | .hbm, ⟨9, _⟩ => ⟨S100x300, .f32⟩
  | .hbm, ⟨10, _⟩ => ⟨S1024x100, .f32⟩
  | .hbm, ⟨11, _⟩ => ⟨S100x300, .f32⟩
  | .hbm, ⟨12, _⟩ => ⟨S1025x100, .f32⟩
  | .hbm, ⟨13, _⟩ => ⟨S1024x1x100, .f32⟩
  | .hbm, ⟨14, _⟩ => ⟨S1x1025x100, .f32⟩
  | .hbm, ⟨15, _⟩ => ⟨S1024x1025x100, .f32⟩
  | .hbm, ⟨16, _⟩ => ⟨S1024x1025x100, .f32⟩
  | .hbm, ⟨17, _⟩ => ⟨S1024x1025x100, .f32⟩
  | .hbm, ⟨18, _⟩ => ⟨S1x1x100, .f32⟩
  | .hbm, ⟨19, _⟩ => ⟨S1024x1025x100, .f32⟩
  | .hbm, ⟨20, _⟩ => ⟨S1024x1025x100, .f32⟩
  | .hbm, ⟨21, _⟩ => ⟨S1024x1025x100, .f32⟩
  | .hbm, ⟨22, _⟩ => ⟨S1024x1025x100, .f32⟩
  | .hbm, ⟨23, _⟩ => ⟨S_, .f32⟩
  | .hbm, ⟨24, _⟩ => ⟨S1024x1025x100, .f32⟩
  | .hbm, ⟨25, _⟩ => ⟨S1024x1025x100, .f32⟩
  | .hbm, ⟨26, _⟩ => ⟨S_, .f32⟩
  | .hbm, ⟨27, _⟩ => ⟨S1024x1025x100, .f32⟩
  | .hbm, ⟨28, _⟩ => ⟨S1024x1025x100, .f32⟩
  | .hbm, ⟨29, _⟩ => ⟨S1024x1025x1, .f32⟩
  | .hbm, ⟨30, _⟩ => ⟨S1024x1025, .f32⟩
  | .hbm, ⟨31, _⟩ => ⟨S_, .f32⟩
  | .hbm, ⟨32, _⟩ => ⟨S1024x1025, .f32⟩
  | .hbm, ⟨33, _⟩ => ⟨S1024x1025, .f32⟩
  | .hbm, ⟨34, _⟩ => ⟨S1025, .i32⟩
  | .hbm, ⟨35, _⟩ => ⟨S1x1025, .i32⟩
  | .hbm, ⟨36, _⟩ => ⟨S1024x1, .i32⟩
  | .hbm, ⟨37, _⟩ => ⟨S1024x1025, .i32⟩
  | .hbm, ⟨38, _⟩ => ⟨S1024x1025, .i32⟩
  | .hbm, ⟨39, _⟩ => ⟨S1024x1025, .i1⟩
  | .hbm, ⟨40, _⟩ => ⟨S1024x1025, .f32⟩
  | .hbm, ⟨41, _⟩ => ⟨S1024x1025, .f32⟩
  | .hbm, ⟨42, _⟩ => ⟨S1024x1025, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024x1, .f32⟩
  | .hbm, ⟨53, _⟩ => ⟨S1024x1025, .f32⟩
  | .hbm, ⟨54, _⟩ => ⟨S1024x1025, .f32⟩
  | .hbm, ⟨55, _⟩ => ⟨S1024x1025, .f32⟩
  | .hbm, ⟨56, _⟩ => ⟨S_, .f32⟩
  | .hbm, ⟨57, _⟩ => ⟨S1024, .f32⟩
  | .hbm, ⟨58, _⟩ => ⟨S1024x1, .f32⟩
  | .hbm, ⟨59, _⟩ => ⟨S1024x1025, .f32⟩
  | .hbm, ⟨60, _⟩ => ⟨S1024x1025, .f32⟩
  | _, _ => ⟨S1024x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]

class Facts₀ : Prop where
  bcast_S_S1x300 : S_.BroadcastsInDim S1x300 (![] : Fin 0 → Fin S1x300.rank)
  concatenates_S1x300_S1024x300_S1025x300_d0 : Shape.Concatenates [S1x300, S1024x300] S1025x300 0
  slices_S100x600_S100x300_0_0 : S100x600.Slices ![0, 0] S100x300
  slices_S100x600_S100x300_0_300 : S100x600.Slices ![0, 300] S100x300
  bcast_S1024x100_S1024x1x100_0_2 : S1024x100.BroadcastsInDim S1024x1x100 (![0, 2] : Fin 2 → Fin S1024x1x100.rank)
  bcast_S1025x100_S1x1025x100_1_2 : S1025x100.BroadcastsInDim S1x1025x100 (![1, 2] : Fin 2 → Fin S1x1025x100.rank)
  bcast_S1024x1x100_S1024x1025x100_0_1_2 : S1024x1x100.BroadcastsInDim S1024x1025x100 (![0, 1, 2] : Fin 3 → Fin S1024x1025x100.rank)
  bcast_S1x1025x100_S1024x1025x100_0_1_2 : S1x1025x100.BroadcastsInDim S1024x1025x100 (![0, 1, 2] : Fin 3 → Fin S1024x1025x100.rank)
  bcast_S100_S1x1x100_2 : S100.BroadcastsInDim S1x1x100 (![2] : Fin 1 → Fin S1x1x100.rank)
  bcast_S1x1x100_S1024x1025x100_0_1_2 : S1x1x100.BroadcastsInDim S1024x1025x100 (![0, 1, 2] : Fin 3 → Fin S1024x1025x100.rank)
  bcast_S_S1024x1025x100 : S_.BroadcastsInDim S1024x1025x100 (![] : Fin 0 → Fin S1024x1025x100.rank)
  shapeCasts_S1024x1025x1_S1024x1025 : S1024x1025x1.ShapeCasts S1024x1025
  shapeCasts_S1_S_ : S1.ShapeCasts S_
  bcast_S_S1024x1025 : S_.BroadcastsInDim S1024x1025 (![] : Fin 0 → Fin S1024x1025.rank)
  bcast_S1025_S1x1025_1 : S1025.BroadcastsInDim S1x1025 (![1] : Fin 1 → Fin S1x1025.rank)
  bcast_S1024_S1024x1_0 : S1024.BroadcastsInDim S1024x1 (![0] : Fin 1 → Fin S1024x1.rank)
  bcast_S1x1025_S1024x1025_0_1 : S1x1025.BroadcastsInDim S1024x1025 (![0, 1] : Fin 2 → Fin S1024x1025.rank)
  bcast_S1024x1_S1024x1025_0_1 : S1024x1.BroadcastsInDim S1024x1025 (![0, 1] : Fin 2 → Fin S1024x1025.rank)
  reducesTo_S1024x1025_S_d0_1 : S1024x1025.ReducesTo [0, 1] S_
  h_S_ : 0 < S_.numel
  reducesTo_S1024x1025_S1024_d1 : S1024x1025.ReducesTo [1] S1024
  bcast_S_S1024 : S_.BroadcastsInDim S1024 (![] : Fin 0 → Fin S1024.rank)
  dot_S1024x300_S100x300_S1024x100_1_1_0_0_n_n_wf : DotDims.WF S1024x300 S100x300 S1024x100 [1] [1] [0] [0] [] []
  dot_S1025x300_S100x300_S1025x100_1_1_0_0_n_n_wf : DotDims.WF S1025x300 S100x300 S1025x100 [1] [1] [0] [0] [] []
  dot_S1024x1025x100_S1x100_S1024x1025x1_2_1_01_0_n_n_wf : DotDims.WF S1024x1025x100 S1x100 S1024x1025x1 [2] [1] [0, 1] [0] [] []

variable [Facts₀]

def dot_S1024x300_S100x300_S1024x100_1_1_0_0_n_n : DotDims S1024x300 S100x300 S1024x100 where
  lhsContracting := [1]
  rhsContracting := [1]
  lhsNonContracting := [0]
  rhsNonContracting := [0]
  lhsBatch := []
  rhsBatch := []
  wf := dot_S1024x300_S100x300_S1024x100_1_1_0_0_n_n_wf
def dot_S1025x300_S100x300_S1025x100_1_1_0_0_n_n : DotDims S1025x300 S100x300 S1025x100 where
  lhsContracting := [1]
  rhsContracting := [1]
  lhsNonContracting := [0]
  rhsNonContracting := [0]
  lhsBatch := []
  rhsBatch := []
  wf := dot_S1025x300_S100x300_S1025x100_1_1_0_0_n_n_wf
def dot_S1024x1025x100_S1x100_S1024x1025x1_2_1_01_0_n_n : DotDims S1024x1025x100 S1x100 S1024x1025x1 where
  lhsContracting := [2]
  rhsContracting := [1]
  lhsNonContracting := [0, 1]
  rhsNonContracting := [0]
  lhsBatch := []
  rhsBatch := []
  wf := dot_S1024x1025x100_S1x100_S1024x1025x1_2_1_01_0_n_n_wf

class Facts : Prop extends Facts₀ where

variable [Facts]
-- ==== Proof.PairScore.lean ====
/-
  The score of one (token, candidate head) pair, as a function on the extended reals.

  For a token whose projected row is `a`, a candidate whose projected row is `b`, the first layer's bias `β`,
  the second layer's weight row `ω` and its bias `β₀`, the scorer's value is

      (∑ k, σ (a k + b k + β k) · ω k) + β₀,      σ z = 1 / (1 + e^(-z)),

  the sum over the hidden width (100). Both programs compute exactly this number for every pair: the kernel with the
  logistic function as one operation and a lane sum, the reference with the quotient spelled out and a contraction
  against the weight row.
-/
import Idealize.ShloMosaic.PureOps.Ideal.Laws
import Idealize.ShloMosaic.Lib.ValueIdx
import Idealize.ShloMosaic.Lib.IdealHost

namespace Cert.Scorer

open Idealize.ShloMosaic

/-- The pair score: the hidden layer's logistic activations weighted by `ω` and summed, plus the output bias. -/
noncomputable def pairScore (a b β ω : Fin 100 → EReal) (β₀ : EReal) : EReal :=
  (∑ k : Fin 100, Ideal.logistic (a k + b k + β k) * ω k) + β₀

/-- The logistic function is the quotient `1 / (1 + e^(-z))` with both ones read off the f32 pattern of one:
    this is how the reference spells it. -/
theorem logistic_eq_quotient (z : EReal) :
    Ideal.div (Ideal.ofBits .f32 0x3F800000#32) (Ideal.ofBits .f32 0x3F800000#32 + Ideal.exp (-z)) = Ideal.logistic z := by
  rw [Ideal.ofBits_one_f32]; rfl

end Cert.Scorer
-- ==== Proof.LibPairLayout.lean ====
/-
  Rows, columns and one shared row laid out over all pairs, and the sum over the last axis of the pair array.

  A scorer that works on every pair (p, q) of a row of one matrix and a row of another first lays the three operands
  out over the a × b × k array of pairs: an a × k matrix is viewed as a × 1 × k and repeated along the middle axis, a
  b × k matrix is viewed as 1 × b × k and repeated along the first axis, and a 1 × k row is viewed as 1 × 1 × k and
  repeated along both. Read at (p, q, j) these are the entries (p, j), (q, j) and (0, j). Summing the pair array over its
  last axis, read at (p, q), is the sum over j of the entries (p, q, j). The 1 × 1 array's one entry read by position is its
  entry (0, 0).
-/
import Idealize.ShloMosaic.PureOps.Ideal.Laws
import Idealize.ShloMosaic.Lib.ValueIdx
import Idealize.ShloMosaic.Lib.Pipeline.Value

namespace Cert.PairLayout

open Idealize.ShloMosaic Idealize.ShloMosaic.ValueIdx

variable {α : Type}

/-- An a × k matrix viewed as a × 1 × k and repeated to a × b × k reads, at (p, q, j), its entry (p, j). -/
theorem rows_over_pairs {a b k : ℕ} (x : (⟨2, ![a, k]⟩ : Shape).Idx → α)
    (h₁ : (⟨2, ![a, k]⟩ : Shape).ShapeCasts ⟨3, ![a, 1, k]⟩) (h₂ : (⟨3, ![a, 1, k]⟩ : Shape).Broadcasts ⟨3, ![a, b, k]⟩)
    (p : Fin a) (q : Fin b) (j : Fin k) :
    broadcastTo ⟨3, ![a, b, k]⟩ (shapeCast ⟨3, ![a, 1, k]⟩ x h₁) h₂ (ix3 p q j) = x (ix2 p j) := by
  refine (broadcastTo_apply _ h₂ (ix3 p q j) (ix3 p (0 : Fin 1) j) fun ax => ?_).trans ?_
  · match ax with
    | ⟨0, _⟩ =>
      show p.val = if a = 1 then 0 else p.val
      split
      · have := p.isLt; omega
      · rfl
    | ⟨1, _⟩ => rfl
    | ⟨2, _⟩ =>
      show j.val = if k = 1 then 0 else j.val
      split
      · have := j.isLt; omega
      · rfl
  · exact shapeCast_apply x h₁ _ _ (by
      rw [Shape.rowMajor_val_two, Shape.rowMajor_val_three]
      show p.val * k + j.val = (p.val * 1 + 0) * k + j.val
      rw [Nat.mul_one, Nat.add_zero])

/-- A b × k matrix viewed as 1 × b × k and repeated to a × b × k reads, at (p, q, j), its entry (q, j). -/
theorem cols_over_pairs {a b k : ℕ} (x : (⟨2, ![b, k]⟩ : Shape).Idx → α)
    (h₁ : (⟨2, ![b, k]⟩ : Shape).ShapeCasts ⟨3, ![1, b, k]⟩) (h₂ : (⟨3, ![1, b, k]⟩ : Shape).Broadcasts ⟨3, ![a, b, k]⟩)
    (p : Fin a) (q : Fin b) (j : Fin k) :
    broadcastTo ⟨3, ![a, b, k]⟩ (shapeCast ⟨3, ![1, b, k]⟩ x h₁) h₂ (ix3 p q j) = x (ix2 q j) := by
  refine (broadcastTo_apply _ h₂ (ix3 p q j) (ix3 (0 : Fin 1) q j) fun ax => ?_).trans ?_
  · match ax with
    | ⟨0, _⟩ => rfl
    | ⟨1, _⟩ =>
      show q.val = if b = 1 then 0 else q.val
      split
      · have := q.isLt; omega
      · rfl
    | ⟨2, _⟩ =>
      show j.val = if k = 1 then 0 else j.val
      split
      · have := j.isLt; omega
      · rfl
  · exact shapeCast_apply x h₁ _ _ (by
      rw [Shape.rowMajor_val_two, Shape.rowMajor_val_three]
      show q.val * k + j.val = (0 * b + q.val) * k + j.val
      rw [Nat.zero_mul, Nat.zero_add])

/-- A 1 × k row viewed as 1 × 1 × k and repeated to a × b × k reads, at (p, q, j), its entry (0, j). -/
theorem row_over_pairs {a b k : ℕ} (x : (⟨2, ![1, k]⟩ : Shape).Idx → α)
    (h₁ : (⟨2, ![1, k]⟩ : Shape).ShapeCasts ⟨3, ![1, 1, k]⟩) (h₂ : (⟨3, ![1, 1, k]⟩ : Shape).Broadcasts ⟨3, ![a, b, k]⟩)
    (p : Fin a) (q : Fin b) (j : Fin k) :
    broadcastTo ⟨3, ![a, b, k]⟩ (shapeCast ⟨3, ![1, 1, k]⟩ x h₁) h₂ (ix3 p q j) = x (ix2 (0 : Fin 1) j) := by
  refine (broadcastTo_apply _ h₂ (ix3 p q j) (ix3 (0 : Fin 1) (0 : Fin 1) j) fun ax => ?_).trans ?_
  · match ax with
    | ⟨0, _⟩ => rfl
    | ⟨1, _⟩ => rfl
    | ⟨2, _⟩ =>
      show j.val = if k = 1 then 0 else j.val
      split
      · have := j.isLt; omega
      · rfl
  · exact shapeCast_apply x h₁ _ _ (by
      rw [Shape.rowMajor_val_two, Shape.rowMajor_val_three]
      show 0 * k + j.val = (0 * 1 + 0) * k + j.val
      rw [Nat.zero_mul, Nat.zero_add])

/-- The f32 lane sum of an a × b × k array over its last axis, into the zero pattern, reads at (p, q) the sum over j of the
    entries (p, q, j). -/
theorem sum_last_axis {a b k : ℕ} (src : FVec Ideal ⟨3, ![a, b, k]⟩ .f32)
    (h : (⟨3, ![a, b, k]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ j : Fin k, src (ix3 p q j) := by
  refine (Ideal.multiReduction_add_single src 0x00000000#32 h hφ hacc (ix2 p q)).trans ?_
  show ∑ j : Fin k, src (h.lift (ix2 p q) j) = _
  refine Finset.sum_congr rfl fun j _ => congrArg src (funext fun ax => Fin.ext ?_)
  match ax with
  | ⟨0, _⟩ => rfl
  | ⟨1, _⟩ => rfl
  | ⟨2, _⟩ => rfl

/-- The one entry of a 1 × 1 array taken by position is its entry (0, 0). -/
theorem extract_one_by_one (x : (⟨2, ![1, 1]⟩ : Shape).Idx → α) (h : ∀ ax, (![0, 0] : Fin 2 → ℕ) ax < (⟨2, ![1, 1]⟩ : Shape).size ax) :
    extractAt ![0, 0] x h = x (ix2 (0 : Fin 1) (0 : Fin 1)) := by
  unfold extractAt
  exact congrArg x (funext fun ax => Fin.ext (by match ax with | ⟨0, _⟩ => rfl | ⟨1, _⟩ => rfl))

end Cert.PairLayout
-- ==== Proof.TileScore.lean ====
/-
  What the kernel body stores for one tile, read at one entry.

  The body loads a 128 × 100 block of token projections, a 128 × 100 block of candidate projections, the two 1 × 100
  rows (hidden bias, output weights) and the 1 × 1 output bias, and stores a 128 × 128 tile. Entry (p, q) of the tile is
  the pair score of row p of the first block and row q of the second.
-/
import proofs.«138857_j22351009809139_1_alg».proof.Proof.Gen.KernelIdeal.Skeleton
import proofs.«138857_j22351009809139_1_alg».proof.Proof.PairScore
import proofs.«138857_j22351009809139_1_alg».proof.Proof.LibPairLayout

noncomputable section

namespace Cert.KernelIdeal.Tile

open Cert.KernelIdeal Cert.KernelIdeal.Gen Idealize.ShloMosaic Idealize.ShloMosaic.ValueIdx Cert.Scorer Cert.PairLayout

/-- Entry (p, q) of the stored tile is the pair score of row p of the token block and row q of the candidate block. -/
theorem tile_apply (x0 x1 : Vec Ideal S128x100 .f32) (x2 x3 : Vec Ideal S1x100 .f32) (x4 : Vec Ideal S1x1 .f32)
    (p q : Fin 128) :
    k0_pay1 (F := Ideal) x0 x1 x2 x3 x4 (ix2 p q)
      = pairScore (fun k => x0 (ix2 p k)) (fun k => x1 (ix2 q k)) (fun k => x2 (ix2 (0 : Fin 1) k))
          (fun k => x3 (ix2 (0 : Fin 1) k)) (x4 (ix2 (0 : Fin 1) (0 : Fin 1))) := by
  unfold k0_pay1 pairScore
  refine congrArg₂ (· + ·) ?_ ?_
  · refine (sum_last_axis _ _ _ _ p q).trans (Finset.sum_congr rfl fun k _ => ?_)
    refine congrArg₂ (· * ·) (congrArg Ideal.logistic (congrArg₂ (· + ·) (congrArg₂ (· + ·) ?_ ?_) ?_)) ?_
    · rw [shapeCast_self]; exact rows_over_pairs x0 _ _ p q k
    · rw [shapeCast_self]; exact cols_over_pairs x1 _ _ p q k
    · rw [shapeCast_self]; exact row_over_pairs x2 _ _ p q k
    · exact row_over_pairs x3 _ _ p q k
  · exact extract_one_by_one x4 _

end Cert.KernelIdeal.Tile

end
-- ==== Proof.ScoreArray.lean ====
/-
  The padded score array the kernel leaves: every tile is a block of one function of the five arrays it reads.

  Grid point t = (i, j) of the 8 × 9 grid reads rows 128 i … 128 i + 127 of the token projections, rows 128 j … 128 j + 127 of
  the (padded) candidate projections and the three small arrays whole, and writes tile (i, j) of the 1024 × 1152 output.
  Entry (p, q) of that tile is the pair score of token row 128 i + p and candidate row 128 j + q, so the whole output is
  the array of pair scores, and the 72 tiles cover it.
-/
import proofs.«138857_j22351009809139_1_alg».proof.Proof.Gen.KernelIdeal.Frame
import proofs.«138857_j22351009809139_1_alg».proof.Proof.TileScore
import Idealize.ShloMosaic.Lib.Pipeline.Value

noncomputable section

namespace Cert.KernelIdeal.Scores

open Cert.KernelIdeal Cert.KernelIdeal.Gen Cert.KernelIdeal.Tile Idealize.ShloMosaic Idealize.ShloMosaic.TcCoe Idealize.SL.Sem
open Idealize.ShloMosaic.ValueIdx Cert.Scorer
open Idealize.ShloMosaic.Pipeline (Dat)

variable (m : (ℓ : Loc nD τ sig) → Buf (Elt Ideal) ℓ) (ρ : Dev nD → PrngReg)

/-- The array of pair scores over all 1024 × 1152 (token, padded candidate) pairs. -/
def scoreArray (A₁ : Vec Ideal S1024x100 .f32) (A₂ : Vec Ideal S1152x100 .f32) (B W : Vec Ideal S1x100 .f32)
    (C : Vec Ideal S1x1 .f32) : Vec Ideal S1024x1152 .f32 := fun i =>
  pairScore (fun k => A₁ (ix2 (⟨(i 0).val, (i 0).isLt⟩ : Fin 1024) k)) (fun k => A₂ (ix2 (⟨(i 1).val, (i 1).isLt⟩ : Fin 1152) k))
    (fun k => B (ix2 (0 : Fin 1) k)) (fun k => W (ix2 (0 : Fin 1) k)) (C (ix2 (0 : Fin 1) (0 : Fin 1)))

theorem hz : (![0, 0] : Fin 2 → Nat) = fun _ => 0 := funext fun a => by fin_cases a <;> rfl

/-- The block indices over the grid: the token block follows the tile's row index, the candidate block its column index,
    the small arrays have one block, and the tile indices stay inside 8 × 9. -/
theorem index_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 7 ∧ win0_5.index t (1 : Fin 2) ≤ 8 :=
  (by decide +kernel : ∀ t : Fin grid0.N, _)

/-- Every tile of the 8 × 9 tiling is some grid point's. -/
theorem index_onto : ∀ (q0 : Fin 8) (q1 : Fin 9), ∃ t : Fin cfg0.N, win0_5.index t = ![q0.val, q1.val] :=
  (by decide +kernel : ∀ (q0 : Fin 8) (q1 : Fin 9), ∃ t : Fin grid0.N, win0_5.index t = ![q0.val, q1.val])

/-- The token block at point t is rows 128 i … of the token projections, i the tile's row index. -/
theorem tokens_block (c : Dev nD) (t : Fin cfg0.N) (x : S128x100.Idx) (i : S1024x100.Idx)
    (h0 : (i 0).val = win0_5.index t (0 : Fin 2) * 128 + (x 0).val) (h1 : (i 1).val = (x 1).val) :
    (iblk m c 0 t : Vec Ideal S128x100 .f32) x = (V m c main_v3 : Vec Ideal S1024x100 .f32) i := by
  obtain ⟨e0, e1, -⟩ := index_facts t
  unfold iblk
  rw [View.read_apply]
  show V m c main_v3 _ = V m c main_v3 _
  congr 1
  funext a
  apply Fin.ext
  match a with
  | ⟨0, _⟩ => show win0_0.index t (0 : Fin 2) * 128 + 1 * (x 0).val = (i 0).val; omega
  | ⟨1, _⟩ => show win0_0.index t (1 : Fin 2) * 100 + 1 * (x 1).val = (i 1).val; omega

/-- The candidate block at point t is rows 128 j … of the padded candidate projections, j the tile's column index. -/
theorem candidates_block (c : Dev nD) (t : Fin cfg0.N) (x : S128x100.Idx) (i : S1152x100.Idx)
    (h0 : (i 0).val = win0_5.index t (1 : Fin 2) * 128 + (x 0).val) (h1 : (i 1).val = (x 1).val) :
    (iblk m c 1 t : Vec Ideal S128x100 .f32) x = (V m c main_v6 : Vec Ideal S1152x100 .f32) i := by
  obtain ⟨-, -, e0, e1, -⟩ := index_facts t
  unfold iblk
  rw [View.read_apply]
  show V m c main_v6 _ = V m c main_v6 _
  congr 1
  funext a
  apply Fin.ext
  match a with
  | ⟨0, _⟩ => show win0_1.index t (0 : Fin 2) * 128 + 1 * (x 0).val = (i 0).val; omega
  | ⟨1, _⟩ => show win0_1.index t (1 : Fin 2) * 100 + 1 * (x 1).val = (i 1).val; omega

/-- The hidden bias row, the weight row and the output bias are read whole at every point. -/
theorem bias_block (c : Dev nD) (t : Fin cfg0.N) : (iblk m c 2 t : Vec Ideal S1x100 .f32) = (V m c main_v7 : Vec Ideal S1x100 .f32) := by
  obtain ⟨-, -, -, -, e0, e1, -⟩ := index_facts t
  funext x
  unfold iblk
  rw [View.read_apply]
  show V m c main_v7 _ = V m c main_v7 _
  congr 1
  funext a
  apply Fin.ext
  match a with
  | ⟨0, _⟩ => show win0_2.index t (0 : Fin 2) * 1 + 1 * (x 0).val = (x 0).val; omega
  | ⟨1, _⟩ => show win0_2.index t (1 : Fin 2) * 100 + 1 * (x 1).val = (x 1).val; omega

theorem weight_block (c : Dev nD) (t : Fin cfg0.N) : (iblk m c 3 t : Vec Ideal S1x100 .f32) = (V m c main_arg3 : Vec Ideal S1x100 .f32) := by
  obtain ⟨-, -, -, -, -, -, e0, e1, -⟩ := index_facts t
  funext x
  unfold iblk
  rw [View.read_apply]
  show V m c main_arg3 _ = V m c main_arg3 _
  congr 1
  funext a
  apply Fin.ext
  match a with
  | ⟨0, _⟩ => show win0_3.index t (0 : Fin 2) * 1 + 1 * (x 0).val = (x 0).val; omega
  | ⟨1, _⟩ => show win0_3.index t (1 : Fin 2) * 100 + 1 * (x 1).val = (x 1).val; omega

theorem outbias_block (c : Dev nD) (t : Fin cfg0.N) : (iblk m c 4 t : Vec Ideal S1x1 .f32) = (V m c main_v8 : Vec Ideal S1x1 .f32) := by
  obtain ⟨-, -, -, -, -, -, -, -, e0, e1, -⟩ := index_facts t
  funext x
  unfold iblk
  rw [View.read_apply]
  show V m c main_v8 _ = V m c main_v8 _
  congr 1
  funext a
  apply Fin.ext
  match a with
  | ⟨0, _⟩ => show win0_4.index t (0 : Fin 2) * 1 + 1 * (x 0).val = (x 0).val; omega
  | ⟨1, _⟩ => show win0_4.index t (1 : Fin 2) * 1 + 1 * (x 1).val = (x 1).val; omega

/-- What point t writes back is tile t of the score array of the five arrays as the region finds them. -/
theorem flushed_eq (c : Dev nD) (t : Fin cfg0.N) :
    (dats m 0 c).flushed 5 t = ((cfg0.win 5).blk t).view.read (Elt Ideal)
      (scoreArray (V m c main_v3) (V m c main_v6) (V m c main_v7) (V m c main_arg3) (V m c main_v8)) := by
  show (cfg0.win 5).cut (grid0.coords t) ((dats m 0 c).after 5 t) = _
  rw [after0_5]
  unfold out0_5
  rw [View.canon_unit_zero hz]
  simp only [View.ld_unit_zero (S := S128x100) hz, View.ld_unit_zero (S := S1x100) hz, View.ld_unit_zero (S := S1x1) hz]
  rw [bias_block, weight_block, outbias_block]
  funext j
  obtain ⟨p, q, rfl⟩ : ∃ (p q : Fin 128), j = ix2 p q := ⟨j 0, j 1, eq_ix2 j⟩
  obtain ⟨-, -, -, -, -, -, -, -, -, -, b0, b1⟩ := index_facts t
  show k0_pay1 (F := Ideal) (iblk m c 0 t) (iblk m c 1 t) (V m c main_v7) (V m c main_arg3) (V m c main_v8) (ix2 p q) = _
  refine (tile_apply (iblk m c 0 t) (iblk m c 1 t) (V m c main_v7) (V m c main_arg3) (V m c main_v8) p q).trans ?_
  rw [View.read_apply]
  unfold scoreArray pairScore
  refine congrArg₂ (· + ·) (Finset.sum_congr rfl fun k _ => ?_) rfl
  refine congrArg₂ (· * ·) (congrArg Ideal.logistic (congrArg₂ (· + ·) (congrArg₂ (· + ·) ?_ ?_) rfl)) rfl
  · refine tokens_block m c t (ix2 p k) _ ?_ rfl
    show win0_5.index t (0 : Fin 2) * 128 + 1 * p.val = win0_5.index t (0 : Fin 2) * 128 + p.val
    rw [Nat.one_mul]
  · refine candidates_block m c t (ix2 q k) _ ?_ rfl
    show win0_5.index t (1 : Fin 2) * 128 + 1 * q.val = win0_5.index t (1 : Fin 2) * 128 + q.val
    rw [Nat.one_mul]

/-- An index of the output is in point t's tile iff each coordinate is in the tile's range on its axis. -/
theorem mem_tile (t : Fin cfg0.N) (i : S1024x1152.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v9).slice (win0_5.rect t)).set ↔ _
  rw [View.set_slice_whole, Rect.mem_set_unit]
  exact Iff.rfl

/-- The 72 tiles cover the output: entry (r, s) lies in tile (r / 128, s / 128). -/
theorem tiles_cover (i : S1024x1152.Idx) :
    ∃ t : Fin cfg0.N, (cfg0.win 5).flush t = true ∧ i ∈ ((cfg0.win 5).blk t).view.set := by
  have hi0 : (i 0).val < 1024 := (i 0).isLt
  have hi1 : (i 1).val < 1152 := (i 1).isLt
  obtain ⟨t, ht⟩ := index_onto ⟨(i 0).val / 128, by omega⟩ ⟨(i 1).val / 128, by omega⟩
  have q0 : win0_5.index t (0 : Fin 2) = (i 0).val / 128 := congrFun ht 0
  have q1 : win0_5.index t (1 : Fin 2) = (i 1).val / 128 := congrFun ht 1
  refine ⟨t, flush0_5 t, ?_⟩
  rw [mem_tile]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 128 ≤ (i 1).val ∧ (i 1).val < win0_5.index t (1 : Fin 2) * 128 + 128; omega

/-- After the region the output array is the score array of the five arrays as the region finds them. -/
theorem scores_final (c : Dev nD) :
    (dats m 0 c).arrAt 5 cfg0.N = scoreArray (V m c main_v3) (V m c main_v6) (V m c main_v7) (V m c main_arg3) (V m c main_v8) :=
  (dats m 0 c).arrAt_eq_of_cover 5 _ (fun t _ => flushed_eq m c t) tiles_cover

end Cert.KernelIdeal.Scores

end
-- ==== Proof.Tail.lean ====
/-
  What both programs do with the score array: the loss and the row-wise softmax.

  From the 1024 × 1025 array of scores and the 1024 target heads both programs compute, by the same host operations,
  (1) the mean over all pairs of |score − indicator|, the indicator being 1 at (p, q) exactly when q is token p's target, and
  (2) the softmax of every row: e^(score − row maximum) divided by the row's sum of those.
  They are named here once, as functions of the score array, so that the two programs' results are compared by comparing
  their score arrays only.
-/
import proofs.«138857_j22351009809139_1_alg».proof.Proof.Gen.ReferenceIdeal

noncomputable section

namespace Cert.ReferenceIdeal.Tail

open Cert.ReferenceIdeal Cert.ReferenceIdeal.Gen Idealize.ShloMosaic Idealize.SL.Sem

variable {F : FTy → Type} [FloatOps F]

/-- The indicator of the true head: 1 at (p, q) when q equals token p's target, 0 elsewhere. -/
def indicator (tg : (⟨S1024, .i32⟩ : BufTy).Contents (Elt F)) : (⟨S1024x1025, .f32⟩ : BufTy).Contents (Elt F) :=
  uitofp .f32 (cmpi .eq
    (broadcastInDim S1024x1025 ![0, 1] bcast_S1x1025_S1024x1025_0_1 (broadcastInDim S1x1025 ![1] bcast_S1025_S1x1025_1 (iotaInDim S1025 32 0)))
    (broadcastInDim S1024x1025 ![0, 1] bcast_S1024x1_S1024x1025_0_1 (broadcastInDim S1024x1 ![0] bcast_S1024_S1024x1_0 tg)))

/-- The loss: the sum over all pairs of |score − indicator|, divided by the number of pairs. -/
def lossOf (sc : (⟨S1024x1025, .f32⟩ : BufTy).Contents (Elt F)) (tg : (⟨S1024, .i32⟩ : BufTy).Contents (Elt F)) :
    (⟨S_, .f32⟩ : BufTy).Contents (Elt F) :=
  Host.divf (Host.reduceAdd (Host.absf (subf sc (indicator (F := F) tg))) (constant S_ .f32 0x00000000#32) reducesTo_S1024x1025_S_d0_1 h_S_)
    (constant S_ .f32 0x49802000#32)

/-- Each row's maximum score (against −∞). -/
def rowMax (sc : (⟨S1024x1025, .f32⟩ : BufTy).Contents (Elt F)) : (⟨S1024, .f32⟩ : BufTy).Contents (Elt F) :=
  maximumf (broadcastInDim S1024 ![] bcast_S_S1024 (constant S_ .f32 0xFF800000#32))
    (Host.reduce FloatOps.maximumf sc (constant S_ .f32 0xFF800000#32) reducesTo_S1024x1025_S1024_d1 h_S_)

/-- e^(score − its row's maximum). -/
def shifted (sc : (⟨S1024x1025, .f32⟩ : BufTy).Contents (Elt F)) : (⟨S1024x1025, .f32⟩ : BufTy).Contents (Elt F) :=
  Host.exp (subf sc (broadcastInDim S1024x1025 ![0, 1] bcast_S1024x1_S1024x1025_0_1
    (broadcastInDim S1024x1 ![0] bcast_S1024_S1024x1_0 (rowMax (F := F) sc))))

/-- The row-wise softmax: the shifted exponentials divided by their row sums. -/
def softmaxOf (sc : (⟨S1024x1025, .f32⟩ : BufTy).Contents (Elt F)) : (⟨S1024x1025, .f32⟩ : BufTy).Contents (Elt F) :=
  Host.divf (shifted (F := F) sc) (broadcastInDim S1024x1025 ![0, 1] bcast_S1024x1_S1024x1025_0_1
    (broadcastInDim S1024x1 ![0] bcast_S1024_S1024x1_0
      (Host.reduceAdd (shifted (F := F) sc) (constant S_ .f32 0x00000000#32) reducesTo_S1024x1025_S1024_d1 h_S_)))

end Cert.ReferenceIdeal.Tail

end
-- ==== Proof.KernelHost.lean ====
/-
  The kernel program's host operations around the region, read as values.

  Before the region the program computes the token projections (a contraction of the sentence with the first half of
  the first layer's weights), the candidate projections (the same with a zero row put in front of the sentence and the
  second half of the weights) padded with 127 zero rows, and views the two biases as a row and a 1 × 1 array. After the
  region it keeps the first 1025 columns of the output and applies the shared loss and softmax to them.
-/
import proofs.«138857_j22351009809139_1_alg».proof.Proof.Gen.KernelIdeal.Frame
import proofs.«138857_j22351009809139_1_alg».proof.Proof.Tail
import Idealize.ShloMosaic.Lib.StableHlo.Run
import Idealize.ShloMosaic.Lib.Pipeline.Value

noncomputable section

namespace Cert.KernelIdeal.Host

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The token projections: the sentence contracted with the first 300 columns of the first layer's weights. -/
abbrev tokenProj (c : Dev nD) : Vec F S1024x100 .f32 :=
  Host.dotGeneral dot_S1024x300_S100x300_S1024x100_1_1_0_0_n_n none (m ((c : Thread nD τ).loc main_arg0))
    (extractStridedSlice S100x300 ![0, 0] (m ((c : Thread nD τ).loc main_arg1)) slices_S100x600_S100x300_0_0)

/-- The candidate projections: a zero row followed by the sentence, contracted with the last 300 columns. -/
abbrev candProj (c : Dev nD) : Vec F S1025x100 .f32 :=
  Host.dotGeneral dot_S1025x300_S100x300_S1025x100_1_1_0_0_n_n none
    (concatenate S1025x300 0
      [⟨S1x300, broadcastInDim S1x300 ![] bcast_S_S1x300 (constant S_ .f32 0x00000000#32)⟩,
        ⟨S1024x300, m ((c : Thread nD τ).loc main_arg0)⟩]
      concatenates_S1x300_S1024x300_S1025x300_d0)
    (extractStridedSlice S100x300 ![0, 300] (m ((c : Thread nD τ).loc main_arg1)) slices_S100x600_S100x300_0_300)

/-- The region finds the token projections in its first operand. -/
theorem tokens_entry (c : Dev nD) : (V m c main_v3 : Vec F S1024x100 .f32) = tokenProj m c := by
  dsimp only [V, V0]
  simp only [hostOps0, hostOps0_1, hostOps0_2, List.flatten_cons, List.flatten_nil, List.append_nil, List.cons_append, List.nil_append]
  after_results

/-- The region finds the candidate projections, padded to 1152 rows, in its second operand. -/
theorem candidates_entry (c : Dev nD) : (V m c main_v6 : Vec F S1152x100 .f32)
    = pad S1152x100 ![0, 0] ![127, 0] ![0, 0] (candProj m c) (sitofp .f32 (constantI S_ 32 0#32) : FVec F S_ .f32)
        pads_S1025x100_S1152x100_01270_000 h_S_ := by
  dsimp only [V, V0]
  simp only [hostOps0, hostOps0_1, hostOps0_2, List.flatten_cons, List.flatten_nil, List.append_nil, List.cons_append, List.nil_append]
  after_results
  rfl

/-- The hidden bias, viewed as a row. -/
theorem bias_entry (c : Dev nD) : (V m c main_v7 : Vec F S1x100 .f32)
    = shapeCast S1x100 (m ((c : Thread nD τ).loc main_arg2)) shapeCasts_S100_S1x100 := by
  dsimp only [V, V0]
  simp only [hostOps0, hostOps0_1, hostOps0_2, List.flatten_cons, List.flatten_nil, List.append_nil, List.cons_append, List.nil_append]
  after_results
  rfl

/-- The output bias, viewed as a 1 × 1 array. -/
theorem outbias_entry (c : Dev nD) : (V m c main_v8 : Vec F S1x1 .f32)
    = shapeCast S1x1 (m ((c : Thread nD τ).loc main_arg4)) shapeCasts_S1_S1x1 := by
  dsimp only [V, V0]
  simp only [hostOps0, hostOps0_1, hostOps0_2, List.flatten_cons, List.flatten_nil, List.append_nil, List.cons_append, List.nil_append]
  after_results
  rfl

/-- The scores the tail works on: the first 1025 columns of the region's output. -/
abbrev keptScores (c : Dev nD) : Vec F S1024x1025 .f32 :=
  extractStridedSlice S1024x1025 ![0, 0] ((dats m 0 c).arrAt 5 cfg0.N) slices_S1024x1152_S1024x1025_0_0

/-- What the lines after the region find in the region's output array and in the target array. -/
theorem tail_reads_output (c : Dev nD) :
    Pipeline.withArrays (cfgs 0).spec c (V0 m c) (fun w => (dats m 0 c).arrAt w (cfgs 0).N) (Proc.devRef .tc main_v9)
      = (dats m 0 c).arrAt 5 cfg0.N :=
  Pipeline.withArrays_arr spec0 launch0.win.arr_inj c _ _ 5

theorem tail_reads_targets (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne _ c (V0 m c) _ main_arg5 (by exact (by decide : ∀ w, Pipeline.arrRef spec0 w ≠ main_arg5))).trans
    (V_main_arg5 m c)

/-- The program's first result is the shared loss of the kept scores and the targets. -/
theorem loss_tail (c : Dev nD) :
    Pipeline.afterTail₀ cfgs (dats m) 0 (V0 m) [hostOps1] c main_v21
      = Cert.ReferenceIdeal.Tail.lossOf (F := F) (keptScores m c) (m ((c : Thread nD τ).loc main_arg5)) := by
  unfold Pipeline.afterTail₀
  show StableHlo.after hostOps1 _ (Proc.devRef .tc main_v21) = _
  after_results
  rw [tail_reads_output, tail_reads_targets]
  rfl

/-- The program's second result is the shared softmax of the kept scores. -/
theorem softmax_tail (c : Dev nD) :
    Pipeline.afterTail₀ cfgs (dats m) 0 (V0 m) [hostOps1] c main_v32
      = Cert.ReferenceIdeal.Tail.softmaxOf (F := F) (keptScores m c) := by
  unfold Pipeline.afterTail₀
  show StableHlo.after hostOps1 _ (Proc.devRef .tc main_v32) = _
  after_results
  rw [tail_reads_output]
  rfl

end Cert.KernelIdeal.Host

end
-- ==== Proof.RefScore.lean ====
/-
  The reference's score array, read at one pair.

  The reference adds the token projection of row p, the candidate projection of row q and the hidden bias over the
  1024 × 1025 × 100 array of pairs, applies 1 / (1 + e^(-z)) entry by entry, contracts the hidden axis against the weight
  row and adds the output bias. Entry (p, q) of the result is the pair score of those two rows.
-/
import proofs.«138857_j22351009809139_1_alg».proof.Proof.Gen.ReferenceIdeal.Read
import proofs.«138857_j22351009809139_1_alg».proof.Proof.PairScore

noncomputable section

namespace Cert.ReferenceIdeal.Scores

open Cert.ReferenceIdeal Cert.ReferenceIdeal.Read Idealize.ShloMosaic Idealize.ShloMosaic.ValueIdx Cert.Scorer

/-- The hidden activation of pair (p, q) at hidden unit k: the logistic function of the two projections plus the bias. -/
theorem hidden_apply (x0 : (⟨S1024x300, .f32⟩ : BufTy).Contents (Elt Ideal)) (x1 : (⟨S100x600, .f32⟩ : BufTy).Contents (Elt Ideal))
    (x2 : (⟨S100, .f32⟩ : BufTy).Contents (Elt Ideal)) (p : Fin 1024) (q : Fin 1025) (k : Fin 100) :
    val_main_v19 (F := Ideal) x0 x1 x2 (ix3 p q k)
      = Ideal.logistic (val_main_v3 (F := Ideal) x0 x1 (ix2 p k) + val_main_v5 (F := Ideal) x0 x1 (ix2 q k) + x2 (ix1 k)) := by
  have e1 : idx_main_v6 (idx_main_v8 (ix3 p q k)) = ix2 p k :=
    funext fun a => Fin.ext (by match a with | ⟨0, _⟩ => rfl | ⟨1, _⟩ => rfl)
  have e2 : idx_main_v7 (idx_main_v9 (ix3 p q k)) = ix2 q k :=
    funext fun a => Fin.ext (by match a with | ⟨0, _⟩ => rfl | ⟨1, _⟩ => rfl)
  have e3 : idx_main_v11 (idx_main_v12 (ix3 p q k)) = ix1 k :=
    funext fun a => Fin.ext (by match a with | ⟨0, _⟩ => rfl)
  rw [val_main_v19_apply, val_main_v18_apply, val_main_cst_1_apply, val_main_v17_apply, val_main_v16_apply,
    val_main_cst_0_apply, val_main_v15_apply, val_main_v14_apply, val_main_v13_apply, val_main_v10_apply,
    val_main_v8_apply, val_main_v6_apply, val_main_v9_apply, val_main_v7_apply, val_main_v12_apply, val_main_v11_apply,
    e1, e2, e3]
  exact logistic_eq_quotient _

/-- Entry (p, q) of the reference's score array is the pair score of token row p and candidate row q. -/
theorem scores_apply (x0 : (⟨S1024x300, .f32⟩ : BufTy).Contents (Elt Ideal)) (x1 : (⟨S100x600, .f32⟩ : BufTy).Contents (Elt Ideal))
    (x2 : (⟨S100, .f32⟩ : BufTy).Contents (Elt Ideal)) (x3 : (⟨S1x100, .f32⟩ : BufTy).Contents (Elt Ideal))
    (x4 : (⟨S1, .f32⟩ : BufTy).Contents (Elt Ideal)) (p : Fin 1024) (q : Fin 1025) :
    val_main_v24 (F := Ideal) x0 x1 x2 x3 x4 (ix2 p q)
      = pairScore (fun k => val_main_v3 (F := Ideal) x0 x1 (ix2 p k)) (fun k => val_main_v5 (F := Ideal) x0 x1 (ix2 q k))
          (fun k => x2 (ix1 k)) (fun k => x3 (ix2 (0 : Fin 1) k)) (x4 (ix1 (0 : Fin 1))) := by
  rw [val_main_v24_apply, val_main_v21_apply, val_main_v20_apply, val_main_v23_apply]
  unfold pairScore
  refine congrArg₂ (· + ·) (Finset.sum_congr rfl fun k _ => ?_) ?_
  · have el : lidx_main_v20 (idx_main_v21 (ix2 p q)) k = ix3 p q k :=
      funext fun a => Fin.ext (by
        have hp : p.val < 1024 := p.isLt
        have hq : q.val < 1025 := q.isLt
        match a with
        | ⟨0, _⟩ => show (p.val * 1025 + q.val) / 1025 = p.val; omega
        | ⟨1, _⟩ => show (p.val * 1025 + q.val) / 1 % 1025 = q.val; omega
        | ⟨2, _⟩ => rfl)
    have er : ridx_main_v20 (idx_main_v21 (ix2 p q)) k = ix2 (0 : Fin 1) k :=
      funext fun a => Fin.ext (by match a with | ⟨0, _⟩ => rfl | ⟨1, _⟩ => rfl)
    rw [el, er, hidden_apply]
  · unfold val_main_v22
    exact shapeCast_apply x4 _ _ (ix1 (0 : Fin 1)) (by
      rw [Shape.rowMajor_val_one]
      exact (Shape.rowMajorPi_zero _ _).symm)

end Cert.ReferenceIdeal.Scores

end
-- ==== Proof.Bridge.lean ====
/-
  The two programs' score arrays agree, and so do their results.

  The kernel program's kept scores (the first 1025 columns of the region's output) and the reference's score array are
  the same function of the arguments: at (p, q) both are the pair score of token row p and candidate row q, because
  the projections are the same host terms, the 127 padding rows lie beyond column 1024 and are cut off again, and the two
  biases are only viewed differently. The loss and the softmax are the same functions of the score array on both sides.
-/
import proofs.«138857_j22351009809139_1_alg».proof.Proof.ScoreArray
import proofs.«138857_j22351009809139_1_alg».proof.Proof.KernelHost
import proofs.«138857_j22351009809139_1_alg».proof.Proof.RefScore
import proofs.«138857_j22351009809139_1_alg».proof.Proof.Tail
import Idealize.ShloMosaic.Lib.KernelVsHost
import Idealize.ShloMosaic.Lib.ValueLayout

noncomputable section

namespace Cert.Proof.Bridge

open Cert.KernelIdeal Cert.KernelIdeal.Gen Idealize.ShloMosaic Idealize.ShloMosaic.TcCoe Idealize.SL.Sem
open Idealize.ShloMosaic.ValueIdx Cert.Scorer

variable (m : (ℓ : Loc nD τ sig) → Buf (Elt Ideal) ℓ) (ρ : Dev nD → PrngReg)

/-- Pair scores of entrywise equal operands are equal. -/
theorem pairScore_congr {a a' b b' β β' ω ω' : Fin 100 → EReal} {β₀ β₀' : EReal} (ha : ∀ k, a k = a' k) (hb : ∀ k, b k = b' k)
    (hβ : ∀ k, β k = β' k) (hω : ∀ k, ω k = ω' k) (h₀ : β₀ = β₀') : pairScore a b β ω β₀ = pairScore a' b' β' ω' β₀' := by
  rw [funext ha, funext hb, funext hβ, funext hω, h₀]

/-- The reference's score array over the kernel program's arguments. -/
abbrev refScores (c : Dev nD) : Vec Ideal S1024x1025 .f32 :=
  Cert.ReferenceIdeal.Read.val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Both programs project the tokens by the same contraction. -/
theorem tokenProj_eq (c : Dev nD) : Host.tokenProj m c
    = Cert.ReferenceIdeal.Read.val_main_v3 (F := Ideal) (m ((c : Thread nD τ).loc main_arg0)) (m ((c : Thread nD τ).loc main_arg1)) := rfl

/-- Both programs project the candidates by the same contraction. -/
theorem candProj_eq (c : Dev nD) : Host.candProj m c
    = Cert.ReferenceIdeal.Read.val_main_v5 (F := Ideal) (m ((c : Thread nD τ).loc main_arg0)) (m ((c : Thread nD τ).loc main_arg1)) := rfl

/-- A padded row below 1025 is the candidate projection's row. -/
theorem padded_row (c : Dev nD) (q : Fin 1025) (hq : q.val < 1152) (k : Fin 100) :
    (V m c main_v6 : Vec Ideal S1152x100 .f32) (ix2 (⟨q.val, hq⟩ : Fin 1152) k)
      = Cert.ReferenceIdeal.Read.val_main_v5 (F := Ideal) (m ((c : Thread nD τ).loc main_arg0)) (m ((c : Thread nD τ).loc main_arg1)) (ix2 q k) := by
  rw [Host.candidates_entry]
  refine (pad_apply_of_inside _ _ _ _ _ _ _ (ix2 (⟨q.val, hq⟩ : Fin 1152) k) (ix2 q k) fun a => ?_).trans (congrFun (candProj_eq m c) _)
  match a with
  | ⟨0, _⟩ => show q.val = 0 + q.val * (0 + 1); omega
  | ⟨1, _⟩ => show k.val = 0 + k.val * (0 + 1); omega

/-- The kept scores are the reference's score array. -/
theorem kept_scores_eq (c : Dev nD) : Host.keptScores m c = refScores m c := by
  funext i
  obtain ⟨p, q, rfl⟩ : ∃ (p : Fin 1024) (q : Fin 1025), i = ix2 p q := ⟨i 0, i 1, eq_ix2 i⟩
  have hq : q.val < 1152 := by have := q.isLt; omega
  refine (extractStridedSlice_apply _ _ _ (ix2 p q) (ix2 p (⟨q.val, hq⟩ : Fin 1152)) fun a => ?_).trans ?_
  · match a with
    | ⟨0, _⟩ => exact (Nat.zero_add _).symm
    | ⟨1, _⟩ => exact (Nat.zero_add _).symm
  rw [Cert.KernelIdeal.Scores.scores_final]
  refine (pairScore_congr (fun k => ?_) (fun k => ?_) (fun k => ?_) (fun k => ?_) ?_).trans
    (Cert.ReferenceIdeal.Scores.scores_apply _ _ _ _ _ p q).symm
  · exact congrFun ((Host.tokens_entry m c).trans (tokenProj_eq m c)) (ix2 p k)
  · exact padded_row m c q hq k
  · rw [Host.bias_entry]; exact shapeCast_a_1a_apply _ _ (0 : Fin 1) k
  · exact congrFun (V_main_arg3 m c) (ix2 (0 : Fin 1) k)
  · rw [Host.outbias_entry]
    exact shapeCast_apply _ _ (ix2 (0 : Fin 1) (0 : Fin 1)) (ix1 (0 : Fin 1)) (by
      rw [Shape.rowMajor_val_one, Shape.rowMajor_val_two]; rfl)

/-- The reference's first result is the shared loss of its score array and the targets. -/
theorem ref_loss (x0 : (⟨Cert.ReferenceIdeal.S1024x300, .f32⟩ : BufTy).Contents (Elt Ideal)) (x1 : (⟨Cert.ReferenceIdeal.S100x600, .f32⟩ : BufTy).Contents (Elt Ideal))
    (x2 : (⟨Cert.ReferenceIdeal.S100, .f32⟩ : BufTy).Contents (Elt Ideal)) (x3 : (⟨Cert.ReferenceIdeal.S1x100, .f32⟩ : BufTy).Contents (Elt Ideal))
    (x4 : (⟨Cert.ReferenceIdeal.S1, .f32⟩ : BufTy).Contents (Elt Ideal)) (x5 : (⟨Cert.ReferenceIdeal.S1024, .i32⟩ : BufTy).Contents (Elt Ideal)) :
    Cert.ReferenceIdeal.Read.val_main_v35 (F := Ideal) x0 x1 x2 x3 x4 x5
      = Cert.ReferenceIdeal.Tail.lossOf (F := Ideal) (Cert.ReferenceIdeal.Read.val_main_v24 (F := Ideal) x0 x1 x2 x3 x4) x5 := rfl

/-- The reference's second result is the shared softmax of its score array. -/
theorem ref_softmax (x0 : (⟨Cert.ReferenceIdeal.S1024x300, .f32⟩ : BufTy).Contents (Elt Ideal)) (x1 : (⟨Cert.ReferenceIdeal.S100x600, .f32⟩ : BufTy).Contents (Elt Ideal))
    (x2 : (⟨Cert.ReferenceIdeal.S100, .f32⟩ : BufTy).Contents (Elt Ideal)) (x3 : (⟨Cert.ReferenceIdeal.S1x100, .f32⟩ : BufTy).Contents (Elt Ideal))
    (x4 : (⟨Cert.ReferenceIdeal.S1, .f32⟩ : BufTy).Contents (Elt Ideal)) :
    Cert.ReferenceIdeal.Read.val_main_v46 (F := Ideal) x0 x1 x2 x3 x4
      = Cert.ReferenceIdeal.Tail.softmaxOf (F := Ideal) (Cert.ReferenceIdeal.Read.val_main_v24 (F := Ideal) x0 x1 x2 x3 x4) := rfl

/-- The kernel program's run: both results as the shared functions of the reference's score array, the arguments unchanged. -/
theorem kernel_run : θ_run defs (onTc (τ := τ) (main (F := Ideal))) ⟨m, fun _ => 0, ρ⟩ fun r => ∀ c : Dev nD,
      r.2.mem ((c.tc : Thread nD τ).loc main_v21)
        = Cert.ReferenceIdeal.Tail.lossOf (F := Ideal) (refScores m c) (m ((c.tc : Thread nD τ).loc main_arg5))
      ∧ r.2.mem ((c.tc : Thread nD τ).loc main_v32) = Cert.ReferenceIdeal.Tail.softmaxOf (F := Ideal) (refScores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(((h c).2 main_v21 (Pipeline.mem_restRefs_of main_v21 (by decide) (by decide))).trans (Host.loss_tail m c)).trans
        (by rw [kept_scores_eq]),
      (((h c).2 main_v32 (Pipeline.mem_restRefs_of main_v32 (by decide) (by decide))).trans (Host.softmax_tail m c)).trans
        (by rw [kept_scores_eq]),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.Proof.Bridge

end
-- ==== Proof.lean ====
/-
  The dependency-parser scorer: a tiled kernel for the pair scores against its reference.

  For every (token p, candidate head q) pair both programs compute the score
      (∑ k, σ (s₁[p, k] + s₂[q, k] + b₁[k]) · W₂[0, k]) + b₂[0],     σ z = 1 / (1 + e^(-z)),
  over the hidden width 100, where s₁ and s₂ are the two projections of the sentence (s₂ with a zero row in front), and
  then the mean absolute deviation of the scores from the one-hot head indicator and the row-wise softmax of the scores.
  The kernel computes the scores tile by tile (128 × 128 tiles of a 1024 × 1152 array, the candidate projections padded
  with zero rows to 1152) and the program keeps the first 1025 columns; the reference computes them as one contraction.
  On the extended reals the two are the same function of the arguments, with no law beyond reading each operation at an
  index: the logistic function is by definition the quotient the reference spells out, and both sums run over the same
  hundred terms in the same order. Nothing here needs the inputs to be finite.

  Modules: PairScore (the pair score), LibPairLayout (operands laid out over all pairs, read at an index), TileScore (one
  stored tile), ScoreArray (the tiles are the array), KernelHost (the host lines around the region), RefScore (the
  reference's scores), Tail (the loss and the softmax, shared), Bridge (the two score arrays agree; the kernel program's run).
-/
import proofs.«138857_j22351009809139_1_alg».proof.Defs
import proofs.«138857_j22351009809139_1_alg».proof.Proof.Gen.Kernel
import proofs.«138857_j22351009809139_1_alg».proof.Proof.Gen.Kernel.Skeleton
import proofs.«138857_j22351009809139_1_alg».proof.Proof.Gen.Kernel.Launch
import proofs.«138857_j22351009809139_1_alg».proof.Proof.Gen.Kernel.Points
import proofs.«138857_j22351009809139_1_alg».proof.Proof.Gen.Kernel.Frame
import proofs.«138857_j22351009809139_1_alg».proof.Proof.Gen.KernelIdeal
import proofs.«138857_j22351009809139_1_alg».proof.Proof.Gen.KernelIdeal.Skeleton
import proofs.«138857_j22351009809139_1_alg».proof.Proof.Gen.KernelIdeal.Launch
import proofs.«138857_j22351009809139_1_alg».proof.Proof.Gen.KernelIdeal.Points
import proofs.«138857_j22351009809139_1_alg».proof.Proof.Gen.KernelIdeal.Frame
import proofs.«138857_j22351009809139_1_alg».proof.Proof.Gen.ReferenceIdeal
import proofs.«138857_j22351009809139_1_alg».proof.Proof.Gen.Pre_finite_inputs
import proofs.«138857_j22351009809139_1_alg».proof.Proof.Gen.ReferenceIdeal.Run
import proofs.«138857_j22351009809139_1_alg».proof.Proof.Gen.ReferenceIdeal.Read
import proofs.«138857_j22351009809139_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the shared loss and softmax of one score array. -/
theorem algebraic : Cert.algebraic_KernelIdeal_ReferenceIdeal := by
  intro m ρ m' ρ' _ hagree
  refine ⟨_, _, Cert.Proof.Bridge.kernel_run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [Cert.ReferenceIdeal.Read.val_main_v35_eq, Cert.Proof.Bridge.ref_loss, a0, a1, a2, a3, a4, a5]
  · rw [Cert.ReferenceIdeal.Read.val_main_v46_eq, Cert.Proof.Bridge.ref_softmax, a0, a1, a2, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
